-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_784" .f32 0x3AA72F05#32 ((1 / 784 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x28x28 : Shape := ⟨4, ![256, 512, 28, 28]⟩
abbrev S256x20 : Shape := ⟨2, ![256, 20]⟩
abbrev S20x512 : Shape := ⟨2, ![20, 512]⟩
abbrev S20 : Shape := ⟨1, ![20]⟩
abbrev S_ : Shape := ⟨0, ![]⟩

class Facts : Prop where
  bcast_S_S256x512x28x28 : S_.BroadcastsInDim S256x512x28x28 (![] : Fin 0 → Fin S256x512x28x28.rank)
  reducesTo_S256x512x28x28_S_d0_1_2_3 : S256x512x28x28.ReducesTo [0, 1, 2, 3] S_
  h_S_ : 0 < S_.numel
  bcast_S_S20x512 : S_.BroadcastsInDim S20x512 (![] : Fin 0 → Fin S20x512.rank)
  reducesTo_S20x512_S_d0_1 : S20x512.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  main_v18

def fn {F : FTy → Type} [FloatOps F] (main_arg0 : FVec F S256x512x28x28 .f32) (main_arg1 : FVec F S256x512x28x28 .f32) (main_arg2 : IVec S256x20 32) (main_arg3 : FVec F S20x512 .f32) (main_arg4 : FVec F S20 .f32) : IVec S_ 1 :=
  let main_v0 : FVec F S256x512x28x28 .f32 := Host.absf main_arg0
  let main_cst : FVec F S_ .f32 := constant S_ .f32 0x7F800000#32
  let main_v1 : FVec F S256x512x28x28 .f32 := broadcastInDim S256x512x28x28 ![] bcast_S_S256x512x28x28 main_cst
  let main_v2 : IVec S256x512x28x28 1 := cmpf .olt main_v0 main_v1
  let main_c : IVec S_ 1 := constantI S_ 1 1#1
  let main_v3 : IVec S_ 1 := (fun x v => Host.reduce IntOp.andi x v reducesTo_S256x512x28x28_S_d0_1_2_3 h_S_) main_v2 main_c
  let main_v4 : FVec F S256x512x28x28 .f32 := Host.absf main_arg1
  let main_cst_0 : FVec F S_ .f32 := constant S_ .f32 0x7F800000#32
  let main_v5 : FVec F S256x512x28x28 .f32 := broadcastInDim S256x512x28x28 ![] bcast_S_S256x512x28x28 main_cst_0
  let main_v6 : IVec S256x512x28x28 1 := cmpf .olt main_v4 main_v5
  let main_c_1 : IVec S_ 1 := constantI S_ 1 1#1
  let main_v7 : IVec S_ 1 := (fun x v => Host.reduce IntOp.andi x v reducesTo_S256x512x28x28_S_d0_1_2_3 h_S_) main_v6 main_c_1
  let main_v8 : IVec S_ 1 := andi main_v3 main_v7
  let main_v9 : FVec F S20x512 .f32 := Host.absf main_arg3
  let main_cst_2 : FVec F S_ .f32 := constant S_ .f32 0x7F800000#32
  let main_v10 : FVec F S20x512 .f32 := broadcastInDim S20x512 ![] bcast_S_S20x512 main_cst_2
  let main_v11 : IVec S20x512 1 := cmpf .olt main_v9 main_v10
  let main_c_3 : IVec S_ 1 := constantI S_ 1 1#1
  let main_v12 : IVec S_ 1 := (fun x v => Host.reduce IntOp.andi x v reducesTo_S20x512_S_d0_1 h_S_) main_v11 main_c_3
  let main_v13 : IVec S_ 1 := andi main_v8 main_v12
  let main_v14 : FVec F S20 .f32 := Host.absf main_arg4
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_v13 main_v16
-- ==== Kernel.lean ====
abbrev S256x512x28x28 : Shape := ⟨4, ![256, 512, 28, 28]⟩
abbrev S256x20 : Shape := ⟨2, ![256, 20]⟩
abbrev S20x512 : Shape := ⟨2, ![20, 512]⟩
abbrev S20 : Shape := ⟨1, ![20]⟩
abbrev S256x512 : Shape := ⟨2, ![256, 512]⟩
abbrev S256x512x784 : Shape := ⟨3, ![256, 512, 784]⟩
abbrev S8x128x784 : Shape := ⟨3, ![8, 128, 784]⟩
abbrev S8x128 : Shape := ⟨2, ![8, 128]⟩
abbrev S8x128x1 : Shape := ⟨3, ![8, 128, 1]⟩
abbrev S512x20 : Shape := ⟨2, ![512, 20]⟩
abbrev S1x20 : Shape := ⟨2, ![1, 20]⟩

abbrev nBuf : Space → Nat
  | .hbm => 17
  | .vmem => 10
  | .smem => 0
  | _ => 0

abbrev bufTy : (tb : Table) → Fin (tcTables nBuf tb) → BufTy
  | .hbm, ⟨0, _⟩ => ⟨S256x512x28x28, .f32⟩
  | .hbm, ⟨1, _⟩ => ⟨S256x512x28x28, .f32⟩
  | .hbm, ⟨2, _⟩ => ⟨S256x20, .i32⟩
  | .hbm, ⟨3, _⟩ => ⟨S20x512, .f32⟩
  | .hbm, ⟨4, _⟩ => ⟨S20, .f32⟩
  | .hbm, ⟨5, _⟩ => ⟨S256x20, .f32⟩
  | .hbm, ⟨6, _⟩ => ⟨S256x512, .f32⟩
  | .hbm, ⟨7, _⟩ => ⟨S256x512x784, .f32⟩
  | .hbm, ⟨8, _⟩ => ⟨S256x512x784, .f32⟩
  | .hbm, ⟨9, _⟩ => ⟨S256x512x784, .f32⟩
  | .hbm, ⟨10, _⟩ => ⟨S256x512, .f32⟩
  | .hbm, ⟨11, _⟩ => ⟨S512x20, .f32⟩
  | .hbm, ⟨12, _⟩ => ⟨S256x20, .f32⟩
  | .hbm, ⟨13, _⟩ => ⟨S1x20, .f32⟩
  | .hbm, ⟨14, _⟩ => ⟨S256x20, .f32⟩
  | .hbm, ⟨15, _⟩ => ⟨S256x20, .f32⟩
  | .hbm, ⟨16, _⟩ => ⟨S256x512x28x28, .f32⟩
  | .local _ .vmem, ⟨0, _⟩ => ⟨S8x128x784, .f32⟩
  | .local _ .vmem, ⟨1, _⟩ => ⟨S8x128x784, .f32⟩
  | .local _ .vmem, ⟨2, _⟩ => ⟨S8x128x784, .f32⟩
  | .local _ .vmem, ⟨3, _⟩ => ⟨S8x128x784, .f32⟩
  | .local _ .vmem, ⟨4, _⟩ => ⟨S8x128, .f32⟩
  | .local _ .vmem, ⟨5, _⟩ => ⟨S8x128, .f32⟩
  | .local _ .vmem, ⟨6, _⟩ => ⟨S8x128x784, .f32⟩
  | .local _ .vmem, ⟨7, _⟩ => ⟨S8x128x784, .f32⟩
  | .local _ .vmem, ⟨8, _⟩ => ⟨S8x128, .f32⟩
  | .local _ .vmem, ⟨9, _⟩ => ⟨S8x128, .f32⟩
  | _, _ => ⟨S256x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256x512x28x28_S256x512x784 : S256x512x28x28.ShapeCasts S256x512x784
  inb_S8x128x784_S8x128x784_0_0_0 : ∀ a, (![0, 0, 0] : Fin 3 → Nat) a + S8x128x784.size a ≤ S8x128x784.size a
  h_S8x128x784 : 0 < S8x128x784.numel
  shapeCasts_S8x128x784_S8x128x784 : S8x128x784.ShapeCasts S8x128x784
  reduces_S8x128x784_S8x128 : S8x128x784.Reduces [2] S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  broadcasts_S8x128x1_S8x128x784 : S8x128x1.Broadcasts S8x128x784
  transposes_S20x512_S512x20_1_0 : S20x512.Transposes [1, 0] S512x20
  bcast_S20_S1x20_1 : S20.BroadcastsInDim S1x20 (![1] : Fin 1 → Fin S1x20.rank)
  bcast_S1x20_S256x20_0_1 : S1x20.BroadcastsInDim S256x20 (![0, 1] : Fin 2 → Fin S256x20.rank)
  shapeCasts_S256x512x784_S256x512x28x28 : S256x512x784.ShapeCasts S256x512x28x28
  dot_S256x20_S20x512_S256x512_1_0_0_1_n_n_wf : DotDims.WF S256x20 S20x512 S256x512 [1] [0] [0] [1] [] []
  dot_S256x512_S512x20_S256x20_1_0_0_1_n_n_wf : DotDims.WF S256x512 S512x20 S256x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x784.size a ≤ S256x512x784.size a
  hwx0_0 : ∀ i : grid0.Coords, EltTy.bits .f32 = 32 ∨ (Rect.block (s := S256x512x784) S8x128x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x784.size a ≤ S256x512x784.size a
  hwx0_1 : ∀ i : grid0.Coords, EltTy.bits .f32 = 32 ∨ (Rect.block (s := S256x512x784) S8x128x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S256x512.size a
  hwx0_2 : ∀ i : grid0.Coords, EltTy.bits .f32 = 32 ∨ (Rect.block (s := S256x512) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x784.size a ≤ S256x512x784.size a
  hwx0_3 : ∀ i : grid0.Coords, EltTy.bits .f32 = 32 ∨ (Rect.block (s := S256x512x784) S8x128x784.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S256x512.size a
  hwx0_4 : ∀ i : grid0.Coords, EltTy.bits .f32 = 32 ∨ (Rect.block (s := S256x512) S8x128.size (cc0_transform_4 i) (hinb0_4 i)).WholeWords (EltTy.packing .f32)

variable [Facts₀]

def dot_S256x20_S20x512_S256x512_1_0_0_1_n_n : DotDims S256x20 S20x512 S256x512 where
  lhsContracting := [1]
  rhsContracting := [0]
  lhsNonContracting := [0]
  rhsNonContracting := [1]
  lhsBatch := []
  rhsBatch := []
  wf := dot_S256x20_S20x512_S256x512_1_0_0_1_n_n_wf
def dot_S256x512_S512x20_S256x20_1_0_0_1_n_n : DotDims S256x512 S512x20 S256x20 where
  lhsContracting := [1]
  rhsContracting := [0]
  lhsNonContracting := [0]
  rhsNonContracting := [1]
  lhsBatch := []
  rhsBatch := []
  wf := dot_S256x512_S512x20_S256x20_1_0_0_1_n_n_wf

abbrev win0_0 : Pipeline.Window sig grid0 :=
  Pipeline.Window.ofSpec (Memref.whole main_v2) S8x128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x128x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S8x128x784.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x512x28x28 : Shape := ⟨4, ![256, 512, 28, 28]⟩
abbrev S256x20 : Shape := ⟨2, ![256, 20]⟩
abbrev S20x512 : Shape := ⟨2, ![20, 512]⟩
abbrev S20 : Shape := ⟨1, ![20]⟩
abbrev S_ : Shape := ⟨0, ![]⟩
abbrev S256x512 : Shape := ⟨2, ![256, 512]⟩
abbrev S512x20 : Shape := ⟨2, ![512, 20]⟩
abbrev S1x20 : Shape := ⟨2, ![1, 20]⟩
abbrev S256x512x1x1 : Shape := ⟨4, ![256, 512, 1, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x512x28x28, .f32⟩
  | .hbm, ⟨1, _⟩ => ⟨S256x512x28x28, .f32⟩
  | .hbm, ⟨2, _⟩ => ⟨S256x20, .i32⟩
  | .hbm, ⟨3, _⟩ => ⟨S20x512, .f32⟩
  | .hbm, ⟨4, _⟩ => ⟨S20, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S512x20, .f32⟩
  | .hbm, ⟨11, _⟩ => ⟨S256x20, .f32⟩
  | .hbm, ⟨12, _⟩ => ⟨S1x20, .f32⟩
  | .hbm, ⟨13, _⟩ => ⟨S256x20, .f32⟩
  | .hbm, ⟨14, _⟩ => ⟨S256x20, .f32⟩
  | .hbm, ⟨15, _⟩ => ⟨S256x20, .f32⟩
  | .hbm, ⟨16, _⟩ => ⟨S256x512, .f32⟩
  | .hbm, ⟨17, _⟩ => ⟨S256x512x1x1, .f32⟩
  | .hbm, ⟨18, _⟩ => ⟨S256x512x28x28, .f32⟩
  | .hbm, ⟨19, _⟩ => ⟨S256x512x28x28, .f32⟩
  | _, _ => ⟨S256x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S256x512x28x28_S256x512_d2_3 : S256x512x28x28.ReducesTo [2, 3] S256x512
  h_S_ : 0 < S_.numel
  bcast_S_S256x512 : S_.BroadcastsInDim S256x512 (![] : Fin 0 → Fin S256x512.rank)
  transposes_S20x512_S512x20_1_0 : S20x512.Transposes [1, 0] S512x20
  bcast_S20_S1x20_1 : S20.BroadcastsInDim S1x20 (![1] : Fin 1 → Fin S1x20.rank)
  bcast_S1x20_S256x20_0_1 : S1x20.BroadcastsInDim S256x20 (![0, 1] : Fin 2 → Fin S256x20.rank)
  bcast_S256x512_S256x512x1x1_0_1 : S256x512.BroadcastsInDim S256x512x1x1 (![0, 1] : Fin 2 → Fin S256x512x1x1.rank)
  bcast_S256x512x1x1_S256x512x28x28_0_1_2_3 : S256x512x1x1.BroadcastsInDim S256x512x28x28 (![0, 1, 2, 3] : Fin 4 → Fin S256x512x28x28.rank)
  dot_S256x512_S512x20_S256x20_1_0_0_1_n_n_wf : DotDims.WF S256x512 S512x20 S256x20 [1] [0] [0] [1] [] []
  dot_S256x20_S20x512_S256x512_1_0_0_1_n_n_wf : DotDims.WF S256x20 S20x512 S256x512 [1] [0] [0] [1] [] []

variable [Facts₀]

def dot_S256x512_S512x20_S256x20_1_0_0_1_n_n : DotDims S256x512 S512x20 S256x20 where
  lhsContracting := [1]
  rhsContracting := [0]
  lhsNonContracting := [0]
  rhsNonContracting := [1]
  lhsBatch := []
  rhsBatch := []
  wf := dot_S256x512_S512x20_S256x20_1_0_0_1_n_n_wf
def dot_S256x20_S20x512_S256x512_1_0_0_1_n_n : DotDims S256x20 S20x512 S256x512 where
  lhsContracting := [1]
  rhsContracting := [0]
  lhsNonContracting := [0]
  rhsNonContracting := [1]
  lhsBatch := []
  rhsBatch := []
  wf := dot_S256x20_S20x512_S256x512_1_0_0_1_n_n_wf

class Facts : Prop extends Facts₀ where

variable [Facts]
-- ==== Proof.PoolSpec.lean ====
/-
  The mathematics shared by both programs, stated over plain arrays of extended reals and free of either program.

  A feature map `x` of shape [256, 512, 28, 28] is pooled over its 28 x 28 plane. The reference sums the plane over
  its two axes and divides by 784; the kernel first views the plane as one axis of 784 entries (row-major:
  entry k is (k / 28, k % 28)), sums that axis and multiplies by the named reciprocal 1/784. Here:
    * `planeSum x j`: the sum over k < 784 of x at (j 0, j 1, k / 28, k % 28);
    * `hostPlaneSum`: the reference's two-axis sum at j is its initial value plus `planeSum x j`
      (the indices the reduction sends to j are exactly those 784, in bijection with k);
    * `mean_eq`: on every extended real s, s / 784 = s * (1/784) (division by a nonzero real is the product with
      its reciprocal, at the infinities too), so no finiteness of the inputs is needed;
    * `ofBits_784`: the word 0x44440000 denotes the real 784;
    * `meanPool x`: the pooled map, `planeSum x j * (1/784)`, and `hostMean`: the reference's sum-then-divide is it.
  The two results of either program are then
    * `logitsOf … (meanPool x) W b`: the pooled map times the transposed classifier weight, plus the bias row, and
    * `scaleMap fmap (weightsOf … label W)`: each feature entry times the weight of its (row, channel), the weights
      being the label matrix (converted to floats) times the classifier weight.
  The matrix products and the bias broadcast are common to both programs and are carried as they are printed: nothing
  below looks inside them.
-/
import Idealize.ShloMosaic.PureOps.Ideal
import Idealize.ShloMosaic.PureOps.Ideal.Laws
import Idealize.ShloMosaic.Lib.ValueIdx
import Idealize.ShloMosaic.Lib.Pipeline.Value

noncomputable section

namespace Cert.PoolSpec

open Idealize.ShloMosaic Idealize.ShloMosaic.ValueIdx

/-- The feature map's shape, its flattened-plane view, and the pooled shape. -/
abbrev Smap : Shape := ⟨4, ![256, 512, 28, 28]⟩
abbrev Sflat : Shape := ⟨3, ![256, 512, 784]⟩
abbrev Spool : Shape := ⟨2, ![256, 512]⟩

/-- Entry k of the flattened plane is row k / 28, column k % 28. -/
abbrev prow (k : Fin 784) : Fin 28 := ⟨k.val / 28, by have := k.isLt; omega⟩
abbrev pcol (k : Fin 784) : Fin 28 := ⟨k.val % 28, Nat.mod_lt _ (by decide)⟩

/-- The sum of one 28 x 28 plane, listed along the flattened axis. -/
def planeSum (x : Smap.Idx → EReal) (j : Spool.Idx) : EReal :=
  ∑ k : Fin 784, x (ix4 (j 0) (j 1) (prow k) (pcol k))

/-- The reference's sum over the two plane axes, at a pooled index, is its initial value plus the plane's sum: the
    map's indices that drop to j are (j 0, j 1, h, w), and (h, w) ↦ 28 h + w lists them along the flattened axis. -/
theorem hostPlaneSum (h : Smap.ReducesTo [2, 3] Spool) (x : Smap.Idx → EReal) (init : EReal) (j : Spool.Idx) :
    Ideal.hostReduceAdd h x init j = init + planeSum x j := by
  unfold Ideal.hostReduceAdd planeSum
  congr 1
  symm
  refine Finset.sum_bij' (fun k _ => ix4 (j 0) (j 1) (prow k) (pcol k))
    (fun i _ => (⟨(i 2).val * 28 + (i 3).val, by have h2 : (i 2).val < 28 := (i 2).isLt; have h3 : (i 3).val < 28 := (i 3).isLt; omega⟩ : Fin 784))
    ?_ ?_ ?_ ?_ ?_
  · intro k _
    rw [Finset.mem_filter]
    refine ⟨Finset.mem_univ _, ?_⟩
    funext b
    match b with
    | ⟨0, _⟩ => exact Fin.ext rfl
    | ⟨1, _⟩ => exact Fin.ext rfl
  · intro i _; exact Finset.mem_univ _
  · intro k _
    apply Fin.ext
    show k.val / 28 * 28 + k.val % 28 = k.val
    omega
  · intro i hi
    rw [Finset.mem_filter] at hi
    have e0 : (j 0).val = (i 0).val := (congrArg (fun v : Spool.Idx => (v 0).val) hi.2).symm
    have e1 : (j 1).val = (i 1).val := (congrArg (fun v : Spool.Idx => (v 1).val) hi.2).symm
    have h2 : (i 2).val < 28 := (i 2).isLt
    have h3 : (i 3).val < 28 := (i 3).isLt
    funext a
    match a with
    | ⟨0, _⟩ => exact Fin.ext e0
    | ⟨1, _⟩ => exact Fin.ext e1
    | ⟨2, _⟩ => apply Fin.ext; show ((i 2).val * 28 + (i 3).val) / 28 = (i 2).val; omega
    | ⟨3, _⟩ => apply Fin.ext; show ((i 2).val * 28 + (i 3).val) % 28 = (i 3).val; omega
  · intro k _; rfl

/-- The word `0x44440000` (784.0) denotes the real 784. -/
theorem ofBits_784 : Ideal.ofBits .f32 0x44440000#32 = ((784 : ℝ) : EReal) := by
  simp [Ideal.ofBits, Ideal.ieee, -EReal.coe_mul]; norm_num

/-- Dividing by 784 is multiplying by 1/784, on every extended real. -/
theorem mean_eq (s : EReal) : Ideal.div s ((784 : ℝ) : EReal) = s * ((1 / 784 : ℝ) : EReal) :=
  Ideal.div_coe (by norm_num) s

/-- The pooled map: the mean of each 28 x 28 plane. -/
def meanPool (x : Smap.Idx → EReal) : Spool.Idx → EReal := fun j => planeSum x j * ((1 / 784 : ℝ) : EReal)

abbrev Sscalar : Shape := ⟨0, ![]⟩

/-- The reference's pooled map — the two-axis sum from the zero word, divided by the splat of 784.0 — is `meanPool`. -/
theorem hostMean (h : Smap.ReducesTo [2, 3] Spool) (h0 : 0 < Sscalar.numel)
    (hb : Sscalar.BroadcastsInDim Spool (![] : Fin 0 → Fin Spool.rank)) (x : Smap.Idx → EReal) :
    Host.divf (F := Ideal) (φ := .f32) (Host.reduceAdd (F := Ideal) (φ := .f32) x (constant (F := Ideal) Sscalar .f32 0x00000000#32) h h0)
        (broadcastInDim Spool ![] hb (constant (F := Ideal) Sscalar .f32 0x44440000#32))
      = meanPool x := by
  funext j
  have hd : broadcastInDim Spool ![] hb (constant (F := Ideal) Sscalar .f32 0x44440000#32) j = ((784 : ℝ) : EReal) :=
    (broadcastInDim_apply _ hb (constant (F := Ideal) Sscalar .f32 0x44440000#32) j ix0 (fun a => a.elim0)).trans ofBits_784
  show Ideal.div (Ideal.hostReduceAdd h x (Ideal.ofBits .f32 0x00000000#32) j)
      (broadcastInDim Spool ![] hb (constant (F := Ideal) Sscalar .f32 0x44440000#32) j) = _
  rw [hd, hostPlaneSum, Ideal.ofBits_zero_f32, zero_add, mean_eq]
  rfl

/-! ## The two results, over the shared matrix products -/

abbrev Slabel : Shape := ⟨2, ![256, 20]⟩
abbrev Sweight : Shape := ⟨2, ![20, 512]⟩
abbrev SweightT : Shape := ⟨2, ![512, 20]⟩
abbrev Sbias : Shape := ⟨1, ![20]⟩
abbrev Sbias1 : Shape := ⟨2, ![1, 20]⟩

/-- The (row, channel) of an entry of the feature map. -/
abbrev lead (i : Smap.Idx) : Spool.Idx := fun a => match a with
  | ⟨0, _⟩ => ⟨(i 0).val, (i 0).isLt⟩
  | ⟨1, _⟩ => ⟨(i 1).val, (i 1).isLt⟩

/-- Each feature entry times the weight of its (row, channel). -/
def scaleMap (fm : Smap.Idx → EReal) (wt : Spool.Idx → EReal) : Smap.Idx → EReal := fun i => fm i * wt (lead i)

/-- The per-(row, channel) weights: the labels, as floats, times the classifier weight. -/
def weightsOf (d : DotDims Slabel Sweight Spool) (lab : IVec Slabel 32) (W : Sweight.Idx → EReal) : Spool.Idx → EReal :=
  Host.dotGeneral (F := Ideal) (φ₁ := .f32) (φ₂ := .f32) d none (sitofp (F := Ideal) .f32 lab) W

/-- The logits: a pooled map times the transposed classifier weight, plus the bias spread over the rows. -/
def logitsOf (d : DotDims Spool SweightT Slabel) (ht : Sweight.Transposes [1, 0] SweightT)
    (hb1 : Sbias.BroadcastsInDim Sbias1 (![1] : Fin 1 → Fin Sbias1.rank))
    (hb2 : Sbias1.BroadcastsInDim Slabel (![0, 1] : Fin 2 → Fin Slabel.rank))
    (p : Spool.Idx → EReal) (W : Sweight.Idx → EReal) (b : Sbias.Idx → EReal) : Slabel.Idx → EReal :=
  addf (F := Ideal) (φ := .f32) (Host.dotGeneral (F := Ideal) (φ₁ := .f32) (φ₂ := .f32) d none p (transpose SweightT [1, 0] W ht))
    (broadcastInDim Slabel ![0, 1] hb2 (broadcastInDim Sbias1 ![1] hb1 b))

end Cert.PoolSpec

end
-- ==== Proof.KernelRegion.lean ====
/-
  What the fused region leaves in its two output arrays, at the ideal instance, as whole-array functions of the
  arrays the region reads.

  The grid is 32 x 4; point (i, j) works on rows 8 i .. 8 i + 7 and channels 128 j .. 128 j + 127, with the whole
  flattened plane (784 entries) in every block. At each point the body
    * sums its x block along the plane axis and multiplies by the named reciprocal 1/784 (the pooled output), and
    * multiplies its feature block, entry by entry, by the weight of the entry's (row, channel) (the scaled output).
  Both are restrictions of one whole-array function (`pooled`, `scaled`), the blocks tile the arrays, so each output
  array ends holding that function of the arrays as the region found them.
-/
import proofs.«414187_j23725399343149_3_alg».proof.Proof.Gen.KernelIdeal.Frame
import proofs.«414187_j23725399343149_3_alg».proof.Proof.PoolSpec
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx

/-! ## Indices -/

/-- The (row, channel) of an entry of the flattened map, and of an entry of a block. -/
abbrev lead2 (i : S256x512x784.Idx) : S256x512.Idx := fun a => match a with
  | ⟨0, _⟩ => ⟨(i 0).val, (i 0).isLt⟩
  | ⟨1, _⟩ => ⟨(i 1).val, (i 1).isLt⟩
abbrev blead2 (y : S8x128x784.Idx) : S8x128.Idx := fun a => match a with
  | ⟨0, _⟩ => ⟨(y 0).val, (y 0).isLt⟩
  | ⟨1, _⟩ => ⟨(y 1).val, (y 1).isLt⟩
/-- Entry k of the plane of a (row, channel), in the flattened map and in a block. -/
abbrev ext3 (i : S256x512.Idx) (k : Fin 784) : S256x512x784.Idx := fun a => match a with
  | ⟨0, _⟩ => ⟨(i 0).val, (i 0).isLt⟩
  | ⟨1, _⟩ => ⟨(i 1).val, (i 1).isLt⟩
  | ⟨2, _⟩ => ⟨k.val, k.isLt⟩
abbrev bext3 (y : S8x128.Idx) (k : Fin 784) : S8x128x784.Idx := fun a => match a with
  | ⟨0, _⟩ => ⟨(y 0).val, (y 0).isLt⟩
  | ⟨1, _⟩ => ⟨(y 1).val, (y 1).isLt⟩
  | ⟨2, _⟩ => ⟨k.val, k.isLt⟩

/-! ## The two whole-array functions -/

/-- The scaled map: each entry times the weight of its (row, channel). -/
def scaled (fm : S256x512x784.Idx → EReal) (wt : S256x512.Idx → EReal) : S256x512x784.Idx → EReal :=
  fun i => fm i * wt (lead2 i)

/-- The pooled map: the plane's sum times the constant `cinv`. -/
def pooled (cinv : EReal) (x3 : S256x512x784.Idx → EReal) : S256x512.Idx → EReal :=
  fun i => (∑ k : Fin 784, x3 (ext3 i k)) * cinv

/-- The kernel's reciprocal, as printed. -/
abbrev cinv : EReal := Named.named (F := Ideal) κ "inv_784" (φ := .f32) 0x3AA72F05#32

/-! ## The body's two stored values at an entry of a block -/

/-- The value stored to the scaled block: the feature entry times the weight at the entry's (row, channel); the
    weight block is viewed [8, 128, 1] and spread along the plane axis. -/
theorem scaledBlock_apply (x1 : Vec Ideal S8x128x784 .f32) (x2 : Vec Ideal S8x128 .f32) (y : S8x128x784.Idx) :
    k0_pay2 (F := Ideal) x1 x2 y = x1 y * x2 (blead2 y) := by
  show (shapeCast S8x128x784 x1 shapeCasts_S8x128x784_S8x128x784) y
      * (broadcastTo S8x128x784 (shapeCast S8x128x1 (shapeCast S8x128 x2 shapeCasts_S8x128_S8x128) shapeCasts_S8x128_S8x128x1) broadcasts_S8x128x1_S8x128x784) y = _
  rw [shapeCast_self, shapeCast_self]
  congr 1
  let k' : S8x128x1.Idx := fun a => match a with
    | ⟨0, _⟩ => ⟨(y 0).val, (y 0).isLt⟩
    | ⟨1, _⟩ => ⟨(y 1).val, (y 1).isLt⟩
    | ⟨2, _⟩ => ⟨0, Nat.one_pos⟩
  refine (broadcastTo_apply _ broadcasts_S8x128x1_S8x128x784 y k' (fun a => match a with
    | ⟨0, _⟩ => by show (y 0).val = if (8 : Nat) = 1 then 0 else (y 0).val; rw [if_neg (by decide)]
    | ⟨1, _⟩ => by show (y 1).val = if (128 : Nat) = 1 then 0 else (y 1).val; rw [if_neg (by decide)]
    | ⟨2, _⟩ => by show 0 = if (1 : Nat) = 1 then 0 else (y 2).val; rw [if_pos rfl])).trans ?_
  refine shapeCast_apply x2 shapeCasts_S8x128_S8x128x1 k' (blead2 y) ?_
  rw [Shape.rowMajor_val_two, Shape.rowMajor_val_three]
  show (y 0).val * 128 + (y 1).val = ((y 0).val * 128 + (y 1).val) * 1 + 0
  omega

theorem scaledBlock_fun (x1 : Vec Ideal S8x128x784 .f32) (x2 : Vec Ideal S8x128 .f32) :
    k0_pay2 (F := Ideal) x1 x2 = fun y => x1 y * x2 (blead2 y) := funext (scaledBlock_apply x1 x2)

/-- The value stored to the pooled block: the sum of the entry's plane, times the reciprocal. -/
theorem pooledBlock_apply (x0 : Vec Ideal S8x128x784 .f32) (y : S8x128.Idx) :
    k0_pay1 (F := Ideal) x0 y = (∑ k : Fin 784, x0 (bext3 y k)) * cinv := by
  show (multiReduction (F := Ideal) .add [2] S8x128 (shapeCast S8x128x784 x0 shapeCasts_S8x128x784_S8x128x784) 0x00000000#32 reduces_S8x128x784_S8x128 (.inl rfl) rfl) y
      * cinv = _
  rw [shapeCast_self]
  congr 1
  refine (Ideal.multiReduction_add_single x0 0x00000000#32 reduces_S8x128x784_S8x128 (.inl rfl) rfl y).trans ?_
  refine Finset.sum_congr rfl fun k _ => congrArg x0 ?_
  funext a
  match a with
  | ⟨0, _⟩ => exact Fin.ext rfl
  | ⟨1, _⟩ => exact Fin.ext rfl
  | ⟨2, _⟩ => exact Fin.ext rfl

theorem pooledBlock_fun (x0 : Vec Ideal S8x128x784 .f32) :
    k0_pay1 (F := Ideal) x0 = fun y => (∑ k : Fin 784, x0 (bext3 y k)) * cinv := funext (pooledBlock_apply x0)

end Cert.KernelIdeal.Region

end
-- ==== Proof.KernelArrays.lean ====
/-
  From blocks to arrays: the two output arrays of the fused region after the run.

  Every window of the region moves with the grid point (i, j): its block index is (i, j) on the (row, channel) axes
  and 0 on the plane axis. So what point t writes back to an output is block t of `scaled` / `pooled` of the arrays
  the region reads, and since the 32 x 4 blocks tile [256, 512], every entry of each output array is written by
  the point (row / 8, channel / 128): the arrays end holding `scaled` and `pooled` themselves.
-/
import proofs.«414187_j23725399343149_3_alg».proof.Proof.KernelRegion

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The three arrays the region reads, as it finds them, at their literal types: the feature map and the x map
    flattened, and the per-(row, channel) weights. -/
abbrev fmArr (c : Dev nD) : S256x512x784.Idx → EReal := V m c main_v3
abbrev wtArr (c : Dev nD) : S256x512.Idx → EReal := V m c main_v1
abbrev xArr (c : Dev nD) : S256x512x784.Idx → EReal := V m c main_v2

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: every window's block index agrees with the scaled output's on the (row, channel)
    axes, is 0 on the plane axis, and stays within 32 x 4. -/
theorem index_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 2) = win0_3.index t (0 : Fin 3) ∧ win0_2.index t (1 : Fin 2) = win0_3.index t (1 : Fin 3)
    ∧ win0_4.index t (0 : Fin 2) = win0_3.index t (0 : Fin 3) ∧ win0_4.index t (1 : Fin 2) = win0_3.index t (1 : Fin 3)
    ∧ win0_3.index t (2 : Fin 3) = 0 ∧ win0_3.index t (0 : Fin 3) ≤ 31 ∧ win0_3.index t (1 : Fin 3) ≤ 3 :=
  (by decide +kernel : ∀ t : Fin grid0.N, _)

/-- Every (row block, channel block) is some point's. -/
theorem index_onto : ∀ (q0 : Fin 32) (q1 : Fin 4), ∃ t : Fin cfg0.N, win0_3.index t (0 : Fin 3) = q0.val ∧ win0_3.index t (1 : Fin 3) = q1.val :=
  (by decide +kernel : ∀ (q0 : Fin 32) (q1 : Fin 4), ∃ t : Fin grid0.N, win0_3.index t (0 : Fin 3) = q0.val ∧ win0_3.index t (1 : Fin 3) = q1.val)

/-! ## The scaled output (window 3) -/

/-- What point t writes back to the scaled output is block t of `scaled` of the feature array and the weight array
    as the region finds them. -/
theorem scaled_flushed (c : Dev nD) (t : Fin cfg0.N) :
    (dats m 0 c).flushed 3 t = ((cfg0.win 3).blk t).view.read (Elt Ideal) (scaled (fmArr m c) (wtArr m c)) := by
  show (cfg0.win 3).cut (grid0.coords t) ((dats m 0 c).after 3 t) = _
  rw [after0_3]
  unfold out0_3
  rw [View.canon_unit_zero zero3]
  simp only [View.ld_unit_zero (S := S8x128x784) zero3, View.ld_unit_zero (S := S8x128) zero2]
  rw [scaledBlock_fun]
  obtain ⟨-, -, -, e3, e4, e5, e6, e7, -, -, e10, -, -⟩ := index_facts t
  funext j
  show fmArr m c (((cfg0.win 1).blk t).view.emb j) * wtArr m c (((cfg0.win 2).blk t).view.emb (blead2 j))
    = fmArr m c (((cfg0.win 3).blk t).view.emb j) * wtArr m c (lead2 (((cfg0.win 3).blk t).view.emb j))
  have h1 : ((cfg0.win 1).blk t).view.emb j = ((cfg0.win 3).blk t).view.emb j := by
    funext a; apply Fin.ext
    match a with
    | ⟨0, _⟩ => show win0_1.index t (0 : Fin 3) * 8 + 1 * (j 0).val = win0_3.index t (0 : Fin 3) * 8 + 1 * (j 0).val; omega
    | ⟨1, _⟩ => show win0_1.index t (1 : Fin 3) * 128 + 1 * (j 1).val = win0_3.index t (1 : Fin 3) * 128 + 1 * (j 1).val; omega
    | ⟨2, _⟩ => show win0_1.index t (2 : Fin 3) * 784 + 1 * (j 2).val = win0_3.index t (2 : Fin 3) * 784 + 1 * (j 2).val; omega
  have h2 : ((cfg0.win 2).blk t).view.emb (blead2 j) = lead2 (((cfg0.win 3).blk t).view.emb j) := by
    funext a; apply Fin.ext
    match a with
    | ⟨0, _⟩ => show win0_2.index t (0 : Fin 2) * 8 + 1 * (j 0).val = win0_3.index t (0 : Fin 3) * 8 + 1 * (j 0).val; omega
    | ⟨1, _⟩ => show win0_2.index t (1 : Fin 2) * 128 + 1 * (j 1).val = win0_3.index t (1 : Fin 3) * 128 + 1 * (j 1).val; omega
  rw [h1, h2]

/-- An entry of the scaled array is in point t's block iff each coordinate is in the block's range. -/
theorem scaled_mem_blk (t : Fin cfg0.N) (i : S256x512x784.Idx) :
    i ∈ ((cfg0.win 3).blk t).view.set ↔ ∀ a : Fin 3, win0_3.index t a * S8x128x784.size a ≤ (i a).val ∧ (i a).val < win0_3.index t a * S8x128x784.size a + S8x128x784.size a := by
  show i ∈ ((View.whole main_v4_0).slice (win0_3.rect t)).set ↔ _
  rw [View.set_slice_whole, Rect.mem_set_unit]
  exact Iff.rfl

/-- Every entry of the scaled array is in the block of the point (row / 8, channel / 128). -/
theorem scaled_cover (i : S256x512x784.Idx) :
    ∃ t : Fin cfg0.N, (cfg0.win 3).flush t = true ∧ i ∈ ((cfg0.win 3).blk t).view.set := by
  have hi0 : (i 0).val < 256 := (i 0).isLt
  have hi1 : (i 1).val < 512 := (i 1).isLt
  have hi2 : (i 2).val < 784 := (i 2).isLt
  obtain ⟨t, q0, q1⟩ := index_onto ⟨(i 0).val / 8, by omega⟩ ⟨(i 1).val / 128, by omega⟩
  have q0' : win0_3.index t (0 : Fin 3) = (i 0).val / 8 := q0
  have q1' : win0_3.index t (1 : Fin 3) = (i 1).val / 128 := q1
  obtain ⟨-, -, -, -, -, -, -, -, -, -, e10, -, -⟩ := index_facts t
  refine ⟨t, flush0_3 t, ?_⟩
  rw [scaled_mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 128 ≤ (i 1).val ∧ (i 1).val < win0_3.index t (1 : Fin 3) * 128 + 128; omega
  | ⟨2, _⟩ => show win0_3.index t (2 : Fin 3) * 784 ≤ (i 2).val ∧ (i 2).val < win0_3.index t (2 : Fin 3) * 784 + 784; omega

/-- The scaled array after the run. -/
theorem scaled_final (c : Dev nD) : (dats m 0 c).arrAt 3 cfg0.N = scaled (fmArr m c) (wtArr m c) :=
  (dats m 0 c).arrAt_eq_of_cover 3 (scaled (fmArr m c) (wtArr m c)) (fun t _ => scaled_flushed m c t) scaled_cover

/-! ## The pooled output (window 4) -/

/-- What point t writes back to the pooled output is block t of `pooled` of the x array as the region finds it. -/
theorem pooled_flushed (c : Dev nD) (t : Fin cfg0.N) :
    (dats m 0 c).flushed 4 t = ((cfg0.win 4).blk t).view.read (Elt Ideal) (pooled cinv (xArr m c)) := by
  show (cfg0.win 4).cut (grid0.coords t) ((dats m 0 c).after 4 t) = _
  rw [after0_4]
  unfold out0_4
  rw [View.canon_unit_zero zero2]
  simp only [View.ld_unit_zero (S := S8x128x784) zero3]
  rw [pooledBlock_fun]
  obtain ⟨e0, e1, e2, -, -, -, -, -, e8, e9, -, -, -⟩ := index_facts t
  funext j
  show (∑ k : Fin 784, xArr m c (((cfg0.win 0).blk t).view.emb (bext3 j k))) * cinv
    = (∑ k : Fin 784, xArr m c (ext3 (((cfg0.win 4).blk t).view.emb j) k)) * cinv
  have h : ∀ k : Fin 784, ((cfg0.win 0).blk t).view.emb (bext3 j k) = ext3 (((cfg0.win 4).blk t).view.emb j) k := by
    intro k
    funext a; apply Fin.ext
    match a with
    | ⟨0, _⟩ => show win0_0.index t (0 : Fin 3) * 8 + 1 * (j 0).val = win0_4.index t (0 : Fin 2) * 8 + 1 * (j 0).val; omega
    | ⟨1, _⟩ => show win0_0.index t (1 : Fin 3) * 128 + 1 * (j 1).val = win0_4.index t (1 : Fin 2) * 128 + 1 * (j 1).val; omega
    | ⟨2, _⟩ => show win0_0.index t (2 : Fin 3) * 784 + 1 * k.val = k.val; omega
  simp only [h]

/-- An entry of the pooled array is in point t's block iff each coordinate is in the block's range. -/
theorem pooled_mem_blk (t : Fin cfg0.N) (i : S256x512.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v4_1).slice (win0_4.rect t)).set ↔ _
  rw [View.set_slice_whole, Rect.mem_set_unit]
  exact Iff.rfl

/-- Every entry of the pooled array is in the block of the point (row / 8, channel / 128). -/
theorem pooled_cover (i : S256x512.Idx) :
    ∃ t : Fin cfg0.N, (cfg0.win 4).flush t = true ∧ i ∈ ((cfg0.win 4).blk t).view.set := by
  have hi0 : (i 0).val < 256 := (i 0).isLt
  have hi1 : (i 1).val < 512 := (i 1).isLt
  obtain ⟨t, q0, q1⟩ := index_onto ⟨(i 0).val / 8, by omega⟩ ⟨(i 1).val / 128, by omega⟩
  have q0' : win0_3.index t (0 : Fin 3) = (i 0).val / 8 := q0
  have q1' : win0_3.index t (1 : Fin 3) = (i 1).val / 128 := q1
  obtain ⟨-, -, -, -, -, -, -, -, e8, e9, -, -, -⟩ := index_facts t
  refine ⟨t, flush0_4 t, ?_⟩
  rw [pooled_mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- The pooled array after the run. -/
theorem pooled_final (c : Dev nD) : (dats m 0 c).arrAt 4 cfg0.N = pooled cinv (xArr m c) :=
  (dats m 0 c).arrAt_eq_of_cover 4 (pooled cinv (xArr m c)) (fun t _ => pooled_flushed m c t) pooled_cover

end Cert.KernelIdeal.Region

end
-- ==== Proof.KernelRun.lean ====
/-
  The idealized kernel's whole run, read: both results as functions of the argument arrays.

  Before the region the host computes the weights (labels as floats times the classifier weight) and views x and the
  feature map with the 28 x 28 plane flattened; after it, it multiplies the pooled array by the transposed classifier
  weight, adds the bias, and views the scaled array back as [256, 512, 28, 28]. With the region's two output arrays
  known (`pooled`, `scaled` of the arrays it reads), what is left is layout: entry k of a flattened plane is
  (k / 28, k % 28) of the plane, so `pooled` of the flattened x is the mean pool of x, and `scaled` viewed back is the
  feature map scaled entry by entry; and the named reciprocal is 1/784.
-/
import proofs.«414187_j23725399343149_3_alg».proof.Proof.KernelArrays
import Idealize.ShloMosaic.Lib.StableHlo.Run

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Idealize.ShloMosaic.StableHlo
open Cert.PoolSpec (meanPool planeSum scaleMap weightsOf logitsOf prow pcol lead)

variable (m : (ℓ : Loc nD τ sig) → Buf (Elt Ideal) ℓ) (ρ : Dev nD → PrngReg)

/-- The argument arrays at their literal types. -/
abbrev xArg (c : Dev nD) : S256x512x28x28.Idx → EReal := m ((c : Thread nD τ).loc main_arg0)
abbrev fmArg (c : Dev nD) : S256x512x28x28.Idx → EReal := m ((c : Thread nD τ).loc main_arg1)
abbrev labArg (c : Dev nD) : IVec S256x20 32 := m ((c : Thread nD τ).loc main_arg2)
abbrev wArg (c : Dev nD) : S20x512.Idx → EReal := m ((c : Thread nD τ).loc main_arg3)
abbrev bArg (c : Dev nD) : S20.Idx → EReal := m ((c : Thread nD τ).loc main_arg4)

/-! ## The arrays the region reads, from the host lines before it -/

theorem xArr_eq (c : Dev nD) : xArr m c = shapeCast S256x512x784 (xArg m c) shapeCasts_S256x512x28x28_S256x512x784 := by
  show StableHlo.after hostOps0 (fun b => m (c, b)) (Proc.devRef .tc main_v2) = _
  after_results
  rfl

theorem fmArr_eq (c : Dev nD) : fmArr m c = shapeCast S256x512x784 (fmArg m c) shapeCasts_S256x512x28x28_S256x512x784 := by
  show StableHlo.after hostOps0 (fun b => m (c, b)) (Proc.devRef .tc main_v3) = _
  after_results
  rfl

theorem wtArr_eq (c : Dev nD) : wtArr m c = weightsOf dot_S256x20_S20x512_S256x512_1_0_0_1_n_n (labArg m c) (wArg m c) := by
  show StableHlo.after hostOps0 (fun b => m (c, b)) (Proc.devRef .tc main_v1) = _
  after_results
  rfl

/-- The named reciprocal is 1/784. -/
theorem cinv_eq : cinv = ((1 / 784 : ℝ) : EReal) := IdealRules.named_const.ideal_named_scalar _ _ _ _ rfl

/-- An entry of the flattened view is the map's entry at (row, channel, k / 28, k % 28). -/
theorem flat_apply (x : S256x512x28x28.Idx → EReal) (j : S256x512.Idx) (k : Fin 784) :
    shapeCast S256x512x784 x shapeCasts_S256x512x28x28_S256x512x784 (ext3 j k) = x (ix4 (j 0) (j 1) (prow k) (pcol k)) := by
  refine shapeCast_apply x shapeCasts_S256x512x28x28_S256x512x784 (ext3 j k) (ix4 (j 0) (j 1) (prow k) (pcol k)) ?_
  rw [Shape.rowMajor_val_four, Shape.rowMajor_val_three]
  show (((j 0).val * 512 + (j 1).val) * 28 + k.val / 28) * 28 + k.val % 28 = ((j 0).val * 512 + (j 1).val) * 784 + k.val
  omega

/-- The pooled array is the mean pool of x. -/
theorem pooled_eq (c : Dev nD) : pooled cinv (xArr m c) = meanPool (xArg m c) := by
  rw [xArr_eq, cinv_eq]
  funext j
  unfold pooled meanPool planeSum
  congr 1
  exact Finset.sum_congr rfl fun k _ => flat_apply (xArg m c) j k

/-- The scaled array, viewed back as [256, 512, 28, 28], is the feature map scaled entry by entry. -/
theorem scaled_eq (c : Dev nD) :
    shapeCast S256x512x28x28 (scaled (fmArr m c) (wtArr m c)) shapeCasts_S256x512x784_S256x512x28x28
      = scaleMap (fmArg m c) (weightsOf dot_S256x20_S20x512_S256x512_1_0_0_1_n_n (labArg m c) (wArg m c)) := by
  rw [fmArr_eq, wtArr_eq]
  funext i
  have hi2 : (i 2).val < 28 := (i 2).isLt
  have hi3 : (i 3).val < 28 := (i 3).isLt
  let k : S256x512x784.Idx := fun a => match a with
    | ⟨0, _⟩ => ⟨(i 0).val, (i 0).isLt⟩
    | ⟨1, _⟩ => ⟨(i 1).val, (i 1).isLt⟩
    | ⟨2, _⟩ => ⟨(i 2).val * 28 + (i 3).val, by show (i 2).val * 28 + (i 3).val < 784; omega⟩
  have hrm : (S256x512x784.rowMajor k).val = (S256x512x28x28.rowMajor i).val := by
    rw [Shape.rowMajor_val_four, Shape.rowMajor_val_three]
    show ((i 0).val * 512 + (i 1).val) * 784 + ((i 2).val * 28 + (i 3).val) = (((i 0).val * 512 + (i 1).val) * 28 + (i 2).val) * 28 + (i 3).val
    omega
  refine (shapeCast_apply _ shapeCasts_S256x512x784_S256x512x28x28 i k hrm).trans ?_
  unfold scaled scaleMap
  have e1 : shapeCast S256x512x784 (fmArg m c) shapeCasts_S256x512x28x28_S256x512x784 k = fmArg m c i :=
    shapeCast_apply (fmArg m c) shapeCasts_S256x512x28x28_S256x512x784 k i hrm.symm
  have e2 : lead2 k = lead i := by
    funext a
    match a with
    | ⟨0, _⟩ => exact Fin.ext rfl
    | ⟨1, _⟩ => exact Fin.ext rfl
  rw [e1, e2]

/-! ## The host lines after the region -/

/-- The region's arrays, and the untouched arguments, as the later lines find them. -/
theorem tail_pooled (c : Dev nD) :
    (Pipeline.withArrays (cfgs 0).spec c (V0 m c) (fun w => (dats m 0 c).arrAt w (cfgs 0).N) (Proc.devRef .tc main_v4_1) : S256x512.Idx → EReal)
      = meanPool (xArg m c) :=
  ((Pipeline.withArrays_arr spec0 launch0.win.arr_inj c _ _ 4).trans (pooled_final m c)).trans (pooled_eq m c)

theorem tail_scaled (c : Dev nD) :
    (Pipeline.withArrays (cfgs 0).spec c (V0 m c) (fun w => (dats m 0 c).arrAt w (cfgs 0).N) (Proc.devRef .tc main_v4_0) : S256x512x784.Idx → EReal)
      = scaled (fmArr m c) (wtArr m c) :=
  (Pipeline.withArrays_arr spec0 launch0.win.arr_inj c _ _ 3).trans (scaled_final m c)

theorem tail_w (c : Dev nD) :
    (Pipeline.withArrays (cfgs 0).spec c (V0 m c) (fun w => (dats m 0 c).arrAt w (cfgs 0).N) (Proc.devRef .tc main_arg3) : S20x512.Idx → EReal)
      = wArg m c :=
  (Pipeline.withArrays_of_ne _ c (V0 m c) _ main_arg3 (by exact (by decide : ∀ w, Pipeline.arrRef spec0 w ≠ main_arg3))).trans (V_main_arg3 m c)

theorem tail_b (c : Dev nD) :
    (Pipeline.withArrays (cfgs 0).spec c (V0 m c) (fun w => (dats m 0 c).arrAt w (cfgs 0).N) (Proc.devRef .tc main_arg4) : S20.Idx → EReal)
      = bArg m c :=
  (Pipeline.withArrays_of_ne _ c (V0 m c) _ main_arg4 (by exact (by decide : ∀ w, Pipeline.arrRef spec0 w ≠ main_arg4))).trans (V_main_arg4 m c)

/-- The first result: the logits of the mean pool of x. -/
theorem logits_result (c : Dev nD) :
    Pipeline.afterTail₀ cfgs (dats m) 0 (V0 m) [hostOps1] c main_v9
      = logitsOf dot_S256x512_S512x20_S256x20_1_0_0_1_n_n transposes_S20x512_S512x20_1_0 bcast_S20_S1x20_1 bcast_S1x20_S256x20_0_1
          (meanPool (xArg m c)) (wArg m c) (bArg m c) := by
  unfold Pipeline.afterTail₀
  show StableHlo.after hostOps1 _ (Proc.devRef .tc main_v9) = _
  after_results
  rw [tail_pooled, tail_w, tail_b]
  rfl

/-- The second result: the feature map scaled entry by entry. -/
theorem scaled_result (c : Dev nD) :
    Pipeline.afterTail₀ cfgs (dats m) 0 (V0 m) [hostOps1] c main_v10
      = scaleMap (fmArg m c) (weightsOf dot_S256x20_S20x512_S256x512_1_0_0_1_n_n (labArg m c) (wArg m c)) := by
  unfold Pipeline.afterTail₀
  show StableHlo.after hostOps1 _ (Proc.devRef .tc main_v10) = _
  after_results
  rw [tail_scaled]
  exact scaled_eq m c

/-! ## The run -/

/-- Every weakly fair execution of the idealized kernel terminates with the two results at these functions of the
    arguments, and the arguments unchanged. -/
theorem run : θ_run defs (onTc (τ := τ) (main (F := Ideal))) ⟨m, fun _ => 0, ρ⟩ (fun r => ∀ c : Dev nD,
      r.2.mem ((c.tc : Thread nD τ).loc main_v9)
        = logitsOf dot_S256x512_S512x20_S256x20_1_0_0_1_n_n transposes_S20x512_S512x20_1_0 bcast_S20_S1x20_1 bcast_S1x20_S256x20_0_1
            (meanPool (xArg m c)) (wArg m c) (bArg m c)
      ∧ r.2.mem ((c.tc : Thread nD τ).loc main_v10)
        = scaleMap (fmArg m c) (weightsOf dot_S256x20_S20x512_S256x512_1_0_0_1_n_n (labArg m c) (wArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v9 (Pipeline.mem_restRefs_of main_v9 (by decide) (by decide))).trans (logits_result m c),
     ((h c).2 main_v10 (Pipeline.mem_restRefs_of main_v10 (by decide) (by decide))).trans (scaled_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Region

end
-- ==== Proof.RefValue.lean ====
/-
  The idealized reference's two results, as the same functions of the argument arrays as the kernel's.

  The logits are the shared matrix-product-plus-bias applied to the reference's pooled map, and that map — the sum over
  both plane axes divided by 784 — is the mean pool (`PoolSpec.hostMean`). The scaled map multiplies each feature entry
  by the weights spread over a [256, 512, 1, 1] view and then over the 28 x 28 plane: at an entry, the weight of its
  (row, channel).
-/
import proofs.«414187_j23725399343149_3_alg».proof.Proof.Gen.ReferenceIdeal.Run
import proofs.«414187_j23725399343149_3_alg».proof.Proof.Gen.ReferenceIdeal.Read
import proofs.«414187_j23725399343149_3_alg».proof.Proof.PoolSpec

noncomputable section

namespace Cert.ReferenceIdeal.RefValue

open Cert.ReferenceIdeal Cert.ReferenceIdeal.Gen Cert.ReferenceIdeal.Read Idealize.ShloMosaic Idealize.ShloMosaic.TcCoe Idealize.SL.Sem
open Cert.PoolSpec (meanPool scaleMap weightsOf logitsOf lead hostMean)

/-- The reference's logits are the shared product-plus-bias of the mean pool. -/
theorem logits_eq (x0 : (⟨S256x512x28x28, .f32⟩ : BufTy).Contents (Elt Ideal)) (x3 : (⟨S20x512, .f32⟩ : BufTy).Contents (Elt Ideal))
    (x4 : (⟨S20, .f32⟩ : BufTy).Contents (Elt Ideal)) :
    val_main_v7 (F := Ideal) x0 x3 x4
      = logitsOf dot_S256x512_S512x20_S256x20_1_0_0_1_n_n transposes_S20x512_S512x20_1_0 bcast_S20_S1x20_1 bcast_S1x20_S256x20_0_1
          (meanPool x0) x3 x4 := by
  rw [← hostMean reducesTo_S256x512x28x28_S256x512_d2_3 h_S_ bcast_S_S256x512 x0]
  rfl

/-- The reference's scaled map is the feature map times, entry by entry, the weight of the entry's (row, channel). -/
theorem scaled_eq (x1 : (⟨S256x512x28x28, .f32⟩ : BufTy).Contents (Elt Ideal)) (x2 : (⟨S256x20, .i32⟩ : BufTy).Contents (Elt Ideal))
    (x3 : (⟨S20x512, .f32⟩ : BufTy).Contents (Elt Ideal)) :
    val_main_v12 (F := Ideal) x1 x2 x3
      = scaleMap x1 (weightsOf dot_S256x20_S20x512_S256x512_1_0_0_1_n_n x2 x3) := by
  funext i
  rw [val_main_v12_apply, val_main_v11_apply, val_main_v10_apply]
  have e : idx_main_v10 (idx_main_v11 i) = lead i := by
    funext a
    match a with
    | ⟨0, _⟩ => exact Fin.ext rfl
    | ⟨1, _⟩ => exact Fin.ext rfl
  rw [e]
  rfl

end Cert.ReferenceIdeal.RefValue

end
-- ==== Proof.lean ====
/-
  The certificate of the fused pool-and-scale kernel against its reference.

  Both programs return (logits, out_map) of (x, fmap, label, W, b):
    logits  = meanpool(x) · Wᵀ + b,   where meanpool(x)[r, ch] is the mean of the 28 x 28 plane x[r, ch, :, :];
    out_map = fmap * (label · W)[r, ch], each entry scaled by the weight of its (row, channel).
  The kernel pools inside one pallas_call over the plane flattened to 784 entries and multiplies the sum by the constant
  named 1/784; the reference sums over the two plane axes and divides by 784. On the extended reals s / 784 and
  s · (1/784) are the same number for every s, and the two sums list the same 784 entries, so the pooled maps agree
  with no assumption on the inputs; the matrix products and the bias are common to both programs and enter only as
  one shared function of the pooled map. The frames of the two kernel programs are the generated ones; the
  reference's frame is its generated run with the results dropped.
-/
import proofs.«414187_j23725399343149_3_alg».proof.Defs
import proofs.«414187_j23725399343149_3_alg».proof.Proof.Gen.Kernel
import proofs.«414187_j23725399343149_3_alg».proof.Proof.Gen.Kernel.Skeleton
import proofs.«414187_j23725399343149_3_alg».proof.Proof.Gen.Kernel.Launch
import proofs.«414187_j23725399343149_3_alg».proof.Proof.Gen.Kernel.Points
import proofs.«414187_j23725399343149_3_alg».proof.Proof.Gen.Kernel.Frame
import proofs.«414187_j23725399343149_3_alg».proof.Proof.Gen.KernelIdeal
import proofs.«414187_j23725399343149_3_alg».proof.Proof.Gen.KernelIdeal.Skeleton
import proofs.«414187_j23725399343149_3_alg».proof.Proof.Gen.KernelIdeal.Launch
import proofs.«414187_j23725399343149_3_alg».proof.Proof.Gen.KernelIdeal.Points
import proofs.«414187_j23725399343149_3_alg».proof.Proof.Gen.KernelIdeal.Frame
import proofs.«414187_j23725399343149_3_alg».proof.Proof.Gen.ReferenceIdeal
import proofs.«414187_j23725399343149_3_alg».proof.Proof.Gen.ReferenceIdeal.Run
import proofs.«414187_j23725399343149_3_alg».proof.Proof.Gen.ReferenceIdeal.Read
import proofs.«414187_j23725399343149_3_alg».proof.Proof.Gen.Pre_finite_inputs
import proofs.«414187_j23725399343149_3_alg».proof.Proof.KernelRun
import proofs.«414187_j23725399343149_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end at the same two functions of arguments that agree. -/
theorem algebraic : Cert.algebraic_KernelIdeal_ReferenceIdeal := by
  intro m ρ m' ρ' _ hagree
  refine ⟨_, _, Cert.KernelIdeal.Region.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.2.1, (hagree c).2.2.2.2, Cert.ReferenceIdeal.Read.val_main_v7_eq]
    exact Cert.ReferenceIdeal.RefValue.logits_eq _ _ _
  · rw [(hagree c).2.1, (hagree c).2.2.1, (hagree c).2.2.2.1, Cert.ReferenceIdeal.Read.val_main_v12_eq]
    exact Cert.ReferenceIdeal.RefValue.scaled_eq _ _ _

/-- The one rewrite of the idealization: the table gives "inv_784" the value 1/784. -/
theorem preserves : Cert.preserves_Kernel_KernelIdeal :=
  IdealRules.named_const.statement Cert.KernelIdeal.κ "inv_784" .f32 0x3AA72F05#32 ((1 / 784 : ℝ) : EReal) rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
